-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384 : Shape := ⟨1, ![16384]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn_part1 {F : FTy → Type} [FloatOps F] (main_arg4 : FVec F S16384x512 .f32) (main_arg5 : FVec F S16384x512 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S16384x512 .f32 := Host.absf main_arg4
  let main_cst_6 : FVec F S_ .f32 := constant S_ .f32 0x7F800000#32
  let main_v20 : FVec F S16384x512 .f32 := broadcastInDim S16384x512 ![] bcast_S_S16384x512 main_cst_6
  let main_v21 : IVec S16384x512 1 := cmpf .olt main_v19 main_v20
  let main_c_7 : IVec S_ 1 := constantI S_ 1 1#1
  let main_v22 : IVec S_ 1 := (fun x v => Host.reduce IntOp.andi x v reducesTo_S16384x512_S_d0_1 h_S_) main_v21 main_c_7
  let main_v23 : IVec S_ 1 := andi main_v18 main_v22
  let main_v24 : FVec F S16384x512 .f32 := Host.absf main_arg5
  let main_cst_8 : FVec F S_ .f32 := constant S_ .f32 0x7F800000#32
  let main_v25 : FVec F S16384x512 .f32 := broadcastInDim S16384x512 ![] bcast_S_S16384x512 main_cst_8
  let main_v26 : IVec S16384x512 1 := cmpf .olt main_v24 main_v25
  let main_c_9 : IVec S_ 1 := constantI S_ 1 1#1
  let main_v27 : IVec S_ 1 := (fun x v => Host.reduce IntOp.andi x v reducesTo_S16384x512_S_d0_1 h_S_) main_v26 main_c_9
  let main_v28 : IVec S_ 1 := andi main_v23 main_v27
  main_v28

def fn {F : FTy → Type} [FloatOps F] (main_arg0 : FVec F S16384x512 .f32) (main_arg1 : FVec F S16384x512 .f32) (main_arg2 : FVec F S16384x512 .f32) (main_arg3 : FVec F S16384x512 .f32) (main_arg4 : FVec F S16384x512 .f32) (main_arg5 : FVec F S16384x512 .f32) (main_arg6 : IVec S16384 32) (main_arg7 : IVec S16384 32) (main_arg8 : IVec S16384 32) (main_arg9 : IVec S16384 32) (main_arg10 : IVec S16384 32) (main_arg11 : IVec S16384 32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_arg5 main_v13 main_v16
-- ==== Kernel.lean ====
abbrev S16384x512 : Shape := ⟨2, ![16384, 512]⟩
abbrev S16384 : Shape := ⟨1, ![16384]⟩
abbrev S16384x1 : Shape := ⟨2, ![16384, 1]⟩
abbrev S1x1 : Shape := ⟨2, ![1, 1]⟩
abbrev S1024x1 : Shape := ⟨2, ![1024, 1]⟩
abbrev S1024x512 : Shape := ⟨2, ![1024, 512]⟩
abbrev S1024 : Shape := ⟨1, ![1024]⟩
abbrev S1 : Shape := ⟨1, ![1]⟩
abbrev S_ : Shape := ⟨0, ![]⟩

abbrev nBuf : Space → Nat
  | .hbm => 20
  | .vmem => 26
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S16384x1, .i32⟩
  | .hbm, ⟨14, _⟩ => ⟨S16384x1, .i32⟩
  | .hbm, ⟨15, _⟩ => ⟨S16384x1, .i32⟩
  | .hbm, ⟨16, _⟩ => ⟨S16384x1, .i32⟩
  | .hbm, ⟨17, _⟩ => ⟨S16384x1, .i32⟩
  | .hbm, ⟨18, _⟩ => ⟨S1x1, .f32⟩
  | .hbm, ⟨19, _⟩ => ⟨S_, .f32⟩
  | .local _ .vmem, ⟨0, _⟩ => ⟨S1024x1, .i32⟩
  | .local _ .vmem, ⟨1, _⟩ => ⟨S1024x1, .i32⟩
  | .local _ .vmem, ⟨2, _⟩ => ⟨S1024x1, .i32⟩
  | .local _ .vmem, ⟨3, _⟩ => ⟨S1024x1, .i32⟩
  | .local _ .vmem, ⟨4, _⟩ => ⟨S1024x1, .i32⟩
  | .local _ .vmem, ⟨5, _⟩ => ⟨S1024x1, .i32⟩
  | .local _ .vmem, ⟨6, _⟩ => ⟨S1024x1, .i32⟩
  | .local _ .vmem, ⟨7, _⟩ => ⟨S1024x1, .i32⟩
  | .local _ .vmem, ⟨8, _⟩ => ⟨S1024x1, .i32⟩
  | .local _ .vmem, ⟨9, _⟩ => ⟨S1024x1, .i32⟩
  | .local _ .vmem, ⟨10, _⟩ => ⟨S1024x1, .i32⟩
  | .local _ .vmem, ⟨11, _⟩ => ⟨S1024x1, .i32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1x1, .f32⟩
  | .local _ .vmem, ⟨25, _⟩ => ⟨S1x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v79 : BitVec 1 := Scalar.cmpi .eq arg0 c15_i32
  let v80 : BitVec 32 := Scalar.extui v79
  let c0_i32_44 : BitVec 32 := 0#32
  let v81 : BitVec 1 := Scalar.cmpi .ne v80 c0_i32_44
  v81

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

class Facts₀ : Prop where
  shapeCasts_S16384_S16384x1 : S16384.ShapeCasts S16384x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S16384x1.size a
  hwx0_0 : ∀ i : grid0.Coords, EltTy.bits .i32 = 32 ∨ (Rect.block (s := S16384x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .i32 = 32 ∨ (Rect.block (s := S16384x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .i32 = 32 ∨ (Rect.block (s := S16384x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .i32 = 32 ∨ (Rect.block (s := S16384x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S16384x1.size a
  hwx0_4 : ∀ i : grid0.Coords, EltTy.bits .i32 = 32 ∨ (Rect.block (s := S16384x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S16384x1.size a
  hwx0_5 : ∀ i : grid0.Coords, EltTy.bits .i32 = 32 ∨ (Rect.block (s := S16384x1) S1024x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S16384x512.size a
  hwx0_6 : ∀ i : grid0.Coords, EltTy.bits .f32 = 32 ∨ (Rect.block (s := S16384x512) S1024x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S16384x512.size a
  hwx0_7 : ∀ i : grid0.Coords, EltTy.bits .f32 = 32 ∨ (Rect.block (s := S16384x512) S1024x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S16384x512.size a
  hwx0_8 : ∀ i : grid0.Coords, EltTy.bits .f32 = 32 ∨ (Rect.block (s := S16384x512) S1024x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S16384x512.size a
  hwx0_9 : ∀ i : grid0.Coords, EltTy.bits .f32 = 32 ∨ (Rect.block (s := S16384x512) S1024x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S16384x512.size a
  hwx0_10 : ∀ i : grid0.Coords, EltTy.bits .f32 = 32 ∨ (Rect.block (s := S16384x512) S1024x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S16384x512.size a
  hwx0_11 : ∀ i : grid0.Coords, EltTy.bits .f32 = 32 ∨ (Rect.block (s := S16384x512) S1024x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)

variable [Facts₀]

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg0) S1024x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S1024x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg2) S1024x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg3) S1024x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg4) S1024x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg5) S1024x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v6) S1x1.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | ⟨_ + 13, h⟩ => absurd h (Nat.not_lt.2 (Nat.le_add_left _ _))

class Facts : Prop extends Facts₀ where

variable [Facts]
-- ==== ReferenceIdeal.lean ====
abbrev S16384x512 : Shape := ⟨2, ![16384, 512]⟩
abbrev S16384 : Shape := ⟨1, ![16384]⟩
abbrev S1x16384x512 : Shape := ⟨3, ![1, 16384, 512]⟩
abbrev S5x16384x512 : Shape := ⟨3, ![5, 16384, 512]⟩
abbrev S1x16384 : Shape := ⟨2, ![1, 16384]⟩
abbrev S5x16384 : Shape := ⟨2, ![5, 16384]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S1x16384x512, .f32⟩
  | .hbm, ⟨13, _⟩ => ⟨S1x16384x512, .f32⟩
  | .hbm, ⟨14, _⟩ => ⟨S1x16384x512, .f32⟩
  | .hbm, ⟨15, _⟩ => ⟨S1x16384x512, .f32⟩
  | .hbm, ⟨16, _⟩ => ⟨S1x16384x512, .f32⟩
  | .hbm, ⟨17, _⟩ => ⟨S5x16384x512, .f32⟩
  | .hbm, ⟨18, _⟩ => ⟨S1x16384, .i32⟩
  | .hbm, ⟨19, _⟩ => ⟨S1x16384, .i32⟩
  | .hbm, ⟨20, _⟩ => ⟨S1x16384, .i32⟩
  | .hbm, ⟨21, _⟩ => ⟨S1x16384, .i32⟩
  | .hbm, ⟨22, _⟩ => ⟨S1x16384, .i32⟩
  | .hbm, ⟨23, _⟩ => ⟨S5x16384, .i32⟩
  | .hbm, ⟨24, _⟩ => ⟨S1x16384x512, .f32⟩
  | .hbm, ⟨25, _⟩ => ⟨S5x16384x512, .f32⟩
  | .hbm, ⟨26, _⟩ => ⟨S5x16384x512, .f32⟩
  | .hbm, ⟨27, _⟩ => ⟨S5x16384x512, .f32⟩
  | .hbm, ⟨28, _⟩ => ⟨S_, .f32⟩
  | .hbm, ⟨29, _⟩ => ⟨S5x16384, .f32⟩
  | .hbm, ⟨30, _⟩ => ⟨S1x16384, .i32⟩
  | .hbm, ⟨31, _⟩ => ⟨S5x16384, .i32⟩
  | .hbm, ⟨32, _⟩ => ⟨S5x16384, .i1⟩
  | .hbm, ⟨33, _⟩ => ⟨S_, .f32⟩
  | .hbm, ⟨34, _⟩ => ⟨S_, .f32⟩
  | .hbm, ⟨35, _⟩ => ⟨S5x16384, .f32⟩
  | .hbm, ⟨36, _⟩ => ⟨S5x16384, .f32⟩
  | .hbm, ⟨37, _⟩ => ⟨S5x16384, .f32⟩
  | .hbm, ⟨38, _⟩ => ⟨S5x16384, .f32⟩
  | .hbm, ⟨39, _⟩ => ⟨S5x16384, .f32⟩
  | .hbm, ⟨40, _⟩ => ⟨S_, .f32⟩
  | .hbm, ⟨41, _⟩ => ⟨S16384, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩

abbrev nD : Nat := 1
abbrev τ : Topo := Topo.v7x

variable {F : FTy → Type} [FloatOps F]

class Facts₀ : Prop where
  bcast_S16384x512_S1x16384x512_1_2 : S16384x512.BroadcastsInDim S1x16384x512 (![1, 2] : Fin 2 → Fin S1x16384x512.rank)
  concatenates_S1x16384x512_S1x16384x512_S1x16384x512_S1x16384x512_S1x16384x512_S5x16384x512_d0 : Shape.Concatenates [S1x16384x512, S1x16384x512, S1x16384x512, S1x16384x512, S1x16384x512] S5x16384x512 0
  bcast_S16384_S1x16384_1 : S16384.BroadcastsInDim S1x16384 (![1] : Fin 1 → Fin S1x16384.rank)
  concatenates_S1x16384_S1x16384_S1x16384_S1x16384_S1x16384_S5x16384_d0 : Shape.Concatenates [S1x16384, S1x16384, S1x16384, S1x16384, S1x16384] S5x16384 0
  bcast_S1x16384x512_S5x16384x512_0_1_2 : S1x16384x512.BroadcastsInDim S5x16384x512 (![0, 1, 2] : Fin 3 → Fin S5x16384x512.rank)
  reducesTo_S5x16384x512_S5x16384_d2 : S5x16384x512.ReducesTo [2] S5x16384
  h_S_ : 0 < S_.numel
  bcast_S1x16384_S5x16384_0_1 : S1x16384.BroadcastsInDim S5x16384 (![0, 1] : Fin 2 → Fin S5x16384.rank)
  bcast_S_S5x16384 : S_.BroadcastsInDim S5x16384 (![] : Fin 0 → Fin S5x16384.rank)
  reducesTo_S5x16384_S16384_d0 : S5x16384.ReducesTo [0] S16384
  reducesTo_S16384_S_d0 : S16384.ReducesTo [0] S_

variable [Facts₀]

class Facts : Prop extends Facts₀ where

variable [Facts]
-- ==== Proof.PointValue.lean ====
/-
  What one grid point leaves behind, read off the cases the body runs in.

  At every point the body forms the block's signed total `blockTotal` — the sum over the block's 1024 rows of the five
  signed squared distances of the row — and adds it to the one-word accumulator kept in scratch. At the first point the
  accumulator is first reset to zero and then read back; at the others it holds what the point before left. At the last
  point the accumulator, after the addition, is divided by the row count and stored as the result block.
-/
import proofs.«162359_j63015760167697_1_alg».proof.Proof.Gen.KernelIdeal.Frame
import Idealize.ShloMosaic.Lib.Pipeline.Value
import Idealize.ShloMosaic.Lib.Tactic

noncomputable section

namespace Cert.KernelIdeal.PointValue

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- The block's signed total as the body computes it from its twelve input blocks (labels of the anchor and of the five
    neighbours, then the anchor's rows and the five neighbours' rows). -/
def blockTotal (x0 : Vec F S1024x1 .i32) (x1 : Vec F S1024x1 .i32) (x2 : Vec F S1024x1 .i32) (x3 : Vec F S1024x1 .i32) (x4 : Vec F S1024x1 .i32) (x5 : Vec F S1024x1 .i32) (x6 : Vec F S1024x512 .f32) (x7 : Vec F S1024x512 .f32) (x8 : Vec F S1024x512 .f32) (x9 : Vec F S1024x512 .f32) (x10 : Vec F S1024x512 .f32) (x11 : Vec F S1024x512 .f32) : FVec F S1x1 .f32 :=
  k0_pay7 x6 (k0_pay4 x0) (k0_pay5 x6 x0 x7 x1 x8 x2) (k0_pay6 x6 x9) x3 x10 x4 x11 x5

/-- The first point: the accumulator is reset to zero, read back, and the block's total added. -/
theorem scratch_first (c : Dev nD) (i : grid0.Coords) (arg1 : Memref sig .tc .vmem S1024x1 .i32) (harg1 : arg1.IsWhole) (arg2 : Memref sig .tc .vmem S1024x1 .i32) (harg2 : arg2.IsWhole) (arg3 : Memref sig .tc .vmem S1024x1 .i32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1024x1 .i32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1x1 .f32) (harg13 : arg13.IsWhole) (arg14 : Memref sig .tc .vmem S1x1 .f32) (harg14 : arg14.IsWhole) (hc0 : cond0_0 i) (hc1 : ¬cond0_1 i)
    (x0 : Vec F S1024x1 .i32) (x1 : Vec F S1024x1 .i32) (x2 : Vec F S1024x1 .i32) (x3 : Vec F S1024x1 .i32) (x4 : Vec F S1024x1 .i32) (x5 : Vec F S1024x1 .i32) (x6 : Vec F S1024x512 .f32) (x7 : Vec F S1024x512 .f32) (x8 : Vec F S1024x512 .f32) (x9 : Vec F S1024x512 .f32) (x10 : Vec F S1024x512 .f32) (x11 : Vec F S1024x512 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11
      = k0_pay1 (blockTotal x0 x1 x2 x3 x4 x5 x6 x7 x8 x9 x10 x11) (k0_pay3 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11)]
  unfold kernelRun0_A
  dsimp only
  sl_unfold_words
  rw [View.canon_cons_unit_zero (S := S1x1) hz, View.readCov_unit_zero (S := S1x1) _ hz]
  unfold blockTotal
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz, View.ld_unit_zero (S := S1024x512) hz, View.ld_unit_zero (S := S1x1) hz]

/-- A middle point: the block's total is added to what the point before left. -/
theorem scratch_middle (c : Dev nD) (i : grid0.Coords) (arg1 : Memref sig .tc .vmem S1024x1 .i32) (harg1 : arg1.IsWhole) (arg2 : Memref sig .tc .vmem S1024x1 .i32) (harg2 : arg2.IsWhole) (arg3 : Memref sig .tc .vmem S1024x1 .i32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1024x1 .i32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1x1 .f32) (harg13 : arg13.IsWhole) (arg14 : Memref sig .tc .vmem S1x1 .f32) (harg14 : arg14.IsWhole) (hc0 : ¬cond0_0 i) (hc1 : ¬cond0_1 i)
    (x0 : Vec F S1024x1 .i32) (x1 : Vec F S1024x1 .i32) (x2 : Vec F S1024x1 .i32) (x3 : Vec F S1024x1 .i32) (x4 : Vec F S1024x1 .i32) (x5 : Vec F S1024x1 .i32) (x6 : Vec F S1024x512 .f32) (x7 : Vec F S1024x512 .f32) (x8 : Vec F S1024x512 .f32) (x9 : Vec F S1024x512 .f32) (x10 : Vec F S1024x512 .f32) (x11 : Vec F S1024x512 .f32) (xs0 : Vec F S1x1 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0
      = k0_pay1 (blockTotal x0 x1 x2 x3 x4 x5 x6 x7 x8 x9 x10 x11) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0)]
  unfold kernelRun0_B
  dsimp only
  sl_unfold_words
  rw [View.canon_unit_zero hz]
  unfold blockTotal
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz, View.ld_unit_zero (S := S1024x512) hz, View.ld_unit_zero (S := S1x1) hz]

/-- The last point: the same addition; -/
theorem scratch_last (c : Dev nD) (i : grid0.Coords) (arg1 : Memref sig .tc .vmem S1024x1 .i32) (harg1 : arg1.IsWhole) (arg2 : Memref sig .tc .vmem S1024x1 .i32) (harg2 : arg2.IsWhole) (arg3 : Memref sig .tc .vmem S1024x1 .i32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1024x1 .i32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1x1 .f32) (harg13 : arg13.IsWhole) (arg14 : Memref sig .tc .vmem S1x1 .f32) (harg14 : arg14.IsWhole) (hc0 : ¬cond0_0 i) (hc1 : cond0_1 i)
    (x0 : Vec F S1024x1 .i32) (x1 : Vec F S1024x1 .i32) (x2 : Vec F S1024x1 .i32) (x3 : Vec F S1024x1 .i32) (x4 : Vec F S1024x1 .i32) (x5 : Vec F S1024x1 .i32) (x6 : Vec F S1024x512 .f32) (x7 : Vec F S1024x512 .f32) (x8 : Vec F S1024x512 .f32) (x9 : Vec F S1024x512 .f32) (x10 : Vec F S1024x512 .f32) (x11 : Vec F S1024x512 .f32) (xs0 : Vec F S1x1 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0
      = k0_pay1 (blockTotal x0 x1 x2 x3 x4 x5 x6 x7 x8 x9 x10 x11) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0)]
  unfold kernelRun0_C
  dsimp only
  sl_unfold_words
  rw [View.canon_unit_zero hz]
  unfold blockTotal
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz, View.ld_unit_zero (S := S1024x512) hz, View.ld_unit_zero (S := S1x1) hz]

/-- and the result block is the accumulator after it, divided by the row count. -/
theorem result_last (c : Dev nD) (i : grid0.Coords) (arg1 : Memref sig .tc .vmem S1024x1 .i32) (harg1 : arg1.IsWhole) (arg2 : Memref sig .tc .vmem S1024x1 .i32) (harg2 : arg2.IsWhole) (arg3 : Memref sig .tc .vmem S1024x1 .i32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1024x1 .i32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1x1 .f32) (harg13 : arg13.IsWhole) (arg14 : Memref sig .tc .vmem S1x1 .f32) (harg14 : arg14.IsWhole) (hc0 : ¬cond0_0 i) (hc1 : cond0_1 i)
    (x0 : Vec F S1024x1 .i32) (x1 : Vec F S1024x1 .i32) (x2 : Vec F S1024x1 .i32) (x3 : Vec F S1024x1 .i32) (x4 : Vec F S1024x1 .i32) (x5 : Vec F S1024x1 .i32) (x6 : Vec F S1024x512 .f32) (x7 : Vec F S1024x512 .f32) (x8 : Vec F S1024x512 .f32) (x9 : Vec F S1024x512 .f32) (x10 : Vec F S1024x512 .f32) (x11 : Vec F S1024x512 .f32) (xs0 : Vec F S1x1 .f32) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0
      = k0_pay2 (k0_pay1 (blockTotal x0 x1 x2 x3 x4 x5 x6 x7 x8 x9 x10 x11) xs0) := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0)]
  unfold kernelRun0_C
  dsimp only
  sl_unfold_words
  rw [View.canon_unit_zero hz, View.readCov_unit_zero (S := S1x1) _ hz]
  unfold blockTotal
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1) hz, View.ld_unit_zero (S := S1024x512) hz, View.ld_unit_zero (S := S1x1) hz]

end Cert.KernelIdeal.PointValue

end
-- ==== Proof.Accumulated.lean ====
/-
  What the accumulator holds after each grid point, and what the last point stores as the result.

  Point `t` works on row block `t` of every operand. The accumulator after point 0 is zero plus block 0's total; after
  point `n + 1` it is what point `n` left plus block `n + 1`'s total. The result block, stored at the last point
  only, is the accumulator after that point divided by the row count. This is shown by induction on the point, never by
  listing the sixteen points.
-/
import proofs.«162359_j63015760167697_1_alg».proof.Proof.PointValue

noncomputable section

namespace Cert.KernelIdeal.Accumulated

open Idealize.ShloMosaic Idealize.ShloMosaic.TcCoe Idealize.SL.Sem
open Cert.KernelIdeal Cert.KernelIdeal.Gen Cert.KernelIdeal.PointValue

variable {F : FTy → Type} [FloatOps F]
variable (m : (ℓ : Loc nD τ sig) → Buf (Elt F) ℓ)

/-- The twelve operands' blocks at point `t`, each at its literal type: the six label columns, then the anchor's and the
    five neighbours' rows. -/
abbrev blk0 (c : Dev nD) (t : Fin cfg0.N) : Vec F S1024x1 .i32 := iblk m c 0 t
abbrev blk1 (c : Dev nD) (t : Fin cfg0.N) : Vec F S1024x1 .i32 := iblk m c 1 t
abbrev blk2 (c : Dev nD) (t : Fin cfg0.N) : Vec F S1024x1 .i32 := iblk m c 2 t
abbrev blk3 (c : Dev nD) (t : Fin cfg0.N) : Vec F S1024x1 .i32 := iblk m c 3 t
abbrev blk4 (c : Dev nD) (t : Fin cfg0.N) : Vec F S1024x1 .i32 := iblk m c 4 t
abbrev blk5 (c : Dev nD) (t : Fin cfg0.N) : Vec F S1024x1 .i32 := iblk m c 5 t
abbrev blk6 (c : Dev nD) (t : Fin cfg0.N) : Vec F S1024x512 .f32 := iblk m c 6 t
abbrev blk7 (c : Dev nD) (t : Fin cfg0.N) : Vec F S1024x512 .f32 := iblk m c 7 t
abbrev blk8 (c : Dev nD) (t : Fin cfg0.N) : Vec F S1024x512 .f32 := iblk m c 8 t
abbrev blk9 (c : Dev nD) (t : Fin cfg0.N) : Vec F S1024x512 .f32 := iblk m c 9 t
abbrev blk10 (c : Dev nD) (t : Fin cfg0.N) : Vec F S1024x512 .f32 := iblk m c 10 t
abbrev blk11 (c : Dev nD) (t : Fin cfg0.N) : Vec F S1024x512 .f32 := iblk m c 11 t

/-- Block `t`'s signed total. -/
def pointTotal (c : Dev nD) (t : Fin cfg0.N) : FVec F S1x1 .f32 :=
  blockTotal (blk0 m c t) (blk1 m c t) (blk2 m c t) (blk3 m c t) (blk4 m c t) (blk5 m c t) (blk6 m c t) (blk7 m c t) (blk8 m c t) (blk9 m c t) (blk10 m c t) (blk11 m c t)

/-- The accumulator after point `n`. -/
def acc (c : Dev nD) : (n : ℕ) → n < cfg0.N → Vec F S1x1 .f32
  | 0, h => k0_pay1 (pointTotal m c ⟨0, h⟩) (k0_pay3 (F := F))
  | n + 1, h => k0_pay1 (pointTotal m c ⟨n + 1, h⟩) (acc c n (Nat.lt_of_succ_lt h))

/-- The scratch word after point `n`, as the frame run records it, is the accumulator after point `n`. -/
theorem scratch_eq (c : Dev nD) : ∀ (n : ℕ) (h : n < cfg0.N), (outsAt0 m c n h).2 = acc m c n h
  | 0, h => by
    have h0 : (⟨0, h⟩ : Fin cfg0.N).val % 16 = 0 := rfl
    have h1 : ¬(⟨0, h⟩ : Fin cfg0.N).val % 16 = 15 := by dsimp only; omega
    rw [outsAt0_A m c ⟨0, h⟩ h0 h1]
    dsimp only
    exact scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (ms0_11 ⟨0, h⟩) (hs0_11 ⟨0, h⟩) (ms0_12 ⟨0, h⟩) (hs0_12 ⟨0, h⟩) scM0_0 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (iblk m c 10 ⟨0, h⟩) (iblk m c 11 ⟨0, h⟩)
  | n + 1, h => by
    have hN : cfg0.N = 16 := N_0
    have h0 : ¬(⟨n + 1, h⟩ : Fin cfg0.N).val % 16 = 0 := by dsimp only; omega
    by_cases h1 : (⟨n + 1, h⟩ : Fin cfg0.N).val % 16 = 15
    · rw [outsAt0_C m c ⟨n + 1, h⟩ h0 h1]
      dsimp only
      refine (scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (iblk m c 10 ⟨n + 1, h⟩) (iblk m c 11 ⟨n + 1, h⟩) (outsAt0 m c n (Nat.lt_of_succ_lt h)).2).trans ?_
      rw [scratch_eq c n (Nat.lt_of_succ_lt h)]
      rfl
    · rw [outsAt0_B m c ⟨n + 1, h⟩ h0 h1]
      dsimp only
      refine (scratch_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (iblk m c 10 ⟨n + 1, h⟩) (iblk m c 11 ⟨n + 1, h⟩) (outsAt0 m c n (Nat.lt_of_succ_lt h)).2).trans ?_
      rw [scratch_eq c n (Nat.lt_of_succ_lt h)]
      rfl

/-- The last point, as a point of the grid. -/
theorem last_lt : 15 < cfg0.N := by rw [show cfg0.N = 16 from N_0]; decide

/-- The result block the last point stores: the accumulator after it, divided by the row count. -/
theorem result_eq (c : Dev nD) : (outsAt0 m c 15 last_lt).1 = k0_pay2 (acc m c 15 last_lt) := by
  have h0 : ¬(⟨15, last_lt⟩ : Fin cfg0.N).val % 16 = 0 := by decide
  have h1 : (⟨15, last_lt⟩ : Fin cfg0.N).val % 16 = 15 := rfl
  rw [outsAt0_C m c ⟨15, last_lt⟩ h0 h1]
  dsimp only
  refine (result_last c (grid0.coords ⟨15, last_lt⟩) (ms0_0 ⟨15, last_lt⟩) (hs0_0 ⟨15, last_lt⟩) (ms0_1 ⟨15, last_lt⟩) (hs0_1 ⟨15, last_lt⟩) (ms0_2 ⟨15, last_lt⟩) (hs0_2 ⟨15, last_lt⟩) (ms0_3 ⟨15, last_lt⟩) (hs0_3 ⟨15, last_lt⟩) (ms0_4 ⟨15, last_lt⟩) (hs0_4 ⟨15, last_lt⟩) (ms0_5 ⟨15, last_lt⟩) (hs0_5 ⟨15, last_lt⟩) (ms0_6 ⟨15, last_lt⟩) (hs0_6 ⟨15, last_lt⟩) (ms0_7 ⟨15, last_lt⟩) (hs0_7 ⟨15, last_lt⟩) (ms0_8 ⟨15, last_lt⟩) (hs0_8 ⟨15, last_lt⟩) (ms0_9 ⟨15, last_lt⟩) (hs0_9 ⟨15, last_lt⟩) (ms0_10 ⟨15, last_lt⟩) (hs0_10 ⟨15, last_lt⟩) (ms0_11 ⟨15, last_lt⟩) (hs0_11 ⟨15, last_lt⟩) (ms0_12 ⟨15, last_lt⟩) (hs0_12 ⟨15, last_lt⟩) scM0_0 (Memref.isWhole_whole _) (fun hh => h0 ((hcond0_0 ⟨15, last_lt⟩).mp hh)) ((hcond0_1 ⟨15, last_lt⟩).mpr h1) (iblk m c 0 ⟨15, last_lt⟩) (iblk m c 1 ⟨15, last_lt⟩) (iblk m c 2 ⟨15, last_lt⟩) (iblk m c 3 ⟨15, last_lt⟩) (iblk m c 4 ⟨15, last_lt⟩) (iblk m c 5 ⟨15, last_lt⟩) (iblk m c 6 ⟨15, last_lt⟩) (iblk m c 7 ⟨15, last_lt⟩) (iblk m c 8 ⟨15, last_lt⟩) (iblk m c 9 ⟨15, last_lt⟩) (iblk m c 10 ⟨15, last_lt⟩) (iblk m c 11 ⟨15, last_lt⟩) (outsAt0 m c 14 (Nat.lt_of_succ_lt last_lt)).2).trans ?_
  rw [scratch_eq m c 14 (Nat.lt_of_succ_lt last_lt)]
  rfl

end Cert.KernelIdeal.Accumulated

end
-- ==== Proof.KernelRun.lean ====
/-
  The kernel program's run, read as a value.

  The result window's block is the whole 1×1 result array, and only the last grid point writes it back; so after the
  region the result array holds what the last point stored: the accumulator after the last point divided by the row
  count. The one host operation after the region reshapes that 1×1 array to a scalar.
-/
import proofs.«162359_j63015760167697_1_alg».proof.Proof.Accumulated
import Idealize.ShloMosaic.Lib.Pipeline.Value
import Idealize.ShloMosaic.Lib.StableHlo.Run

noncomputable section

namespace Cert.KernelIdeal.KernelRun

open Idealize.ShloMosaic Idealize.ShloMosaic.TcCoe Idealize.SL.Sem
open Idealize.ShloMosaic.Pipeline (Dat)
open Cert.KernelIdeal Cert.KernelIdeal.Gen Cert.KernelIdeal.PointValue Cert.KernelIdeal.Accumulated

variable {F : FTy → Type} [FloatOps F]
variable (m : (ℓ : Loc nD τ sig) → Buf (Elt F) ℓ) (ρ : Dev nD → PrngReg)

/-- What the result array holds after the region: the accumulator after the last point, divided by the row count. -/
abbrev stored (c : Dev nD) : Buf (Elt F) ((c : Thread nD τ).loc main_v6) := k0_pay2 (acc m c 15 last_lt)

/-- The one write-back, at the last point, writes it: the block at offsets zero of the 1×1 array is the array. -/
theorem flushed_eq (c : Dev nD) (t : Fin cfg0.N) (hf : (cfg0.win 12).flush t = true) :
    (dats m 0 c).flushed 12 t = ((cfg0.win 12).blk t).view.read (Elt F) (stored m c) := by
  have hN : cfg0.N = 16 := N_0
  have h15 : t.val = 15 := by have := (flush0_12 t).mp hf; have := t.isLt; omega
  obtain rfl : t = t0_15 := Fin.ext h15
  show (cfg0.win 12).cut (grid0.coords t0_15) ((dats m 0 c).after 12 t0_15) = _
  rw [after0_12]
  have e : (outsAt0 m c t0_15.val t0_15.isLt).1 = stored m c := result_eq m c
  rw [e]
  have hz' : (fun a => win0_12.index t0_15 a * main_v6.ty.shape.size a) = fun _ => 0 := funext fun a => by fin_cases a <;> decide
  exact (Memref.read_access_unit_zero (Elt F) main_v6 hz' (fun a => by rw [congrFun hz' a]; simp) (stored m c)).symm

/-- The last point's block covers the result array, so the array ends at what that point stored. -/
theorem final (c : Dev nD) : (dats m 0 c).arrAt 12 cfg0.N = stored m c :=
  (dats m 0 c).arrAt_eq_of_cover 12 (stored m c) (flushed_eq m c) fun i =>
    ⟨t0_15, (flush0_12 t0_15).mpr rfl, by
      show i ∈ ((View.whole main_v6).slice (win0_12.rect t0_15)).set
      rw [View.set_slice_whole, Rect.mem_set_unit]
      intro a
      have hlo : ∀ a : Fin 2, win0_12.index t0_15 a * win0_12.size a = 0 ∧ win0_12.xsize (grid0.coords t0_15) a = 1 := by decide +kernel
      show win0_12.index t0_15 a * win0_12.size a ≤ (i a : Nat) ∧ (i a : Nat) < win0_12.index t0_15 a * win0_12.size a + win0_12.xsize (grid0.coords t0_15) a
      rw [(hlo a).1, (hlo a).2]
      have hi : (i a : Nat) < 1 := by
        match a with
        | ⟨0, _⟩ => exact (i 0).isLt
        | ⟨1, _⟩ => exact (i 1).isLt
      omega⟩

/-- The scalar result: the stored 1×1 array reshaped. -/
abbrev value (c : Dev nD) : Buf (Elt F) ((c : Thread nD τ).loc main_v7) := shapeCast S_ (stored m c) shapeCasts_S1x1_S_

/-- The host operation after the region leaves the reshape of what the region left in the result array. -/
theorem tail_eq (c : Dev nD) : Pipeline.afterTail₀ cfgs (dats m) 0 (V0 m) [hostOps1] c main_v7 = value m c := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6) = stored m c :=
    (Pipeline.withArrays_arr spec0 launch0.win.arr_inj c (V0 m c) _ 12).trans (final m c)
  rw [e]
  rfl

/-- The run, read: the scalar result at `value`, every argument array unchanged. -/
theorem run : θ_run defs (onTc (τ := τ) (main (F := F))) ⟨m, fun _ => 0, ρ⟩ fun r => ∀ c : Dev nD,
      r.2.mem ((c : Thread nD τ).loc main_v7) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨((h c).2 main_v7 (Pipeline.mem_restRefs_of main_v7 (by decide) (by decide))).trans (tail_eq m c),
      ((h c).1 6).trans (((dats m 0 c).arrAt_in 6 rfl _).trans ((A_eq m c 6).trans (V_main_arg0 m c))),
      ((h c).1 7).trans (((dats m 0 c).arrAt_in 7 rfl _).trans ((A_eq m c 7).trans (V_main_arg1 m c))),
      ((h c).1 8).trans (((dats m 0 c).arrAt_in 8 rfl _).trans ((A_eq m c 8).trans (V_main_arg2 m c))),
      ((h c).1 9).trans (((dats m 0 c).arrAt_in 9 rfl _).trans ((A_eq m c 9).trans (V_main_arg3 m c))),
      ((h c).1 10).trans (((dats m 0 c).arrAt_in 10 rfl _).trans ((A_eq m c 10).trans (V_main_arg4 m c))),
      ((h c).1 11).trans (((dats m 0 c).arrAt_in 11 rfl _).trans ((A_eq m c 11).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.KernelIdeal.KernelRun

end
-- ==== Proof.Spec.lean ====
/-
  The quantity both programs compute, as one expression over the extended reals.

  There are 16384 samples. Each has an anchor row and five neighbour rows of 512 numbers, and an anchor label and five
  neighbour labels. A neighbour contributes the squared distance of its row from the anchor's row, counted with sign
  `+1` when its label equals the anchor's and `-1` when it does not. The result is the total of all contributions
  divided by the number of samples.
-/
import Idealize.ShloMosaic.Lib.ValueIdx
import Idealize.ShloMosaic.PureOps.Ideal

noncomputable section

namespace Cert.SignedDist

open Idealize.ShloMosaic Idealize.ShloMosaic.ValueIdx

/-- The squared distance between row `r` of `a` and row `r` of `e`: the sum over the 512 columns of the squared
    differences. -/
def sqDist {n : ℕ} (a e : (⟨2, ![n, 512]⟩ : Shape).Idx → EReal) (r : Fin n) : EReal :=
  ∑ j : Fin 512, (a (ix2 r j) - e (ix2 r j)) * (a (ix2 r j) - e (ix2 r j))

/-- The sign a neighbour counts with at row `r`: the word of `1.0` where its label `l` equals the anchor's label
    `la`, the word of `-1.0` elsewhere (labels kept as a column of 32-bit words). -/
def sign {n : ℕ} (la l : (⟨2, ![n, 1]⟩ : Shape).Idx → BitVec 32) (r : Fin n) : EReal :=
  Scalar.select (IntOp.cmpi .eq (l (ix2 r 0)) (la (ix2 r 0))) (Ideal.ofBits .f32 0x3F800000#32) (Ideal.ofBits .f32 0xBF800000#32)

/-- Row `r`'s contribution: the five neighbours' signed squared distances, summed. -/
def rowTotal {n : ℕ} (la : (⟨2, ![n, 1]⟩ : Shape).Idx → BitVec 32) (L : Fin 5 → (⟨2, ![n, 1]⟩ : Shape).Idx → BitVec 32)
    (a : (⟨2, ![n, 512]⟩ : Shape).Idx → EReal) (E : Fin 5 → (⟨2, ![n, 512]⟩ : Shape).Idx → EReal) (r : Fin n) : EReal :=
  ∑ k : Fin 5, sign la (L k) r * sqDist a (E k) r

/-- A vector of 16384 labels read as a column. -/
def col (l : (⟨1, ![16384]⟩ : Shape).Idx → BitVec 32) : (⟨2, ![16384, 1]⟩ : Shape).Idx → BitVec 32 :=
  fun i => l (ix1 (i 0))

/-- The result: the total over all samples, divided by the word of `16384.0`. -/
def mean (la : (⟨1, ![16384]⟩ : Shape).Idx → BitVec 32) (L : Fin 5 → (⟨1, ![16384]⟩ : Shape).Idx → BitVec 32)
    (a : (⟨2, ![16384, 512]⟩ : Shape).Idx → EReal) (E : Fin 5 → (⟨2, ![16384, 512]⟩ : Shape).Idx → EReal) : EReal :=
  Ideal.div (∑ b : Fin 16384, rowTotal (col la) (fun k => col (L k)) a E b) (Ideal.ofBits .f32 0x46800000#32)

end Cert.SignedDist

end
-- ==== Proof.Algebra.lean ====
/-
  The arithmetic both programs share, over any commutative additive monoid (the extended reals are one).

  A total over the 16384 rows can be taken sixteen row blocks of 1024 rows at a time: row `b` is row `r` of block `t`
  with `b = 1024·t + r`, and a sum over `b` is the sum over `t` of the sums over `r`. An accumulator that starts at
  `z` and adds the blocks' sums one after the other ends at `z` plus the total. Only commutativity and associativity
  of `+` are used, so no finiteness is needed.
-/
import Idealize.ShloMosaic.Lib.ValueIdx

namespace Cert.SignedDist

open Finset

/-- Row `r` of row block `t`: row `1024·t + r` of the 16384. -/
abbrev row (t : Fin 16) (r : Fin 1024) : Fin 16384 :=
  ⟨1024 * t.val + r.val, by have := t.isLt; have := r.isLt; omega⟩

/-- A sum over the 16384 rows is the sum, over the sixteen row blocks, of each block's sum over its 1024 rows. -/
theorem sum_rows_eq_sum_blocks {M : Type*} [AddCommMonoid M] (g : Fin 16384 → M) :
    ∑ b, g b = ∑ t : Fin 16, ∑ r : Fin 1024, g (row t r) := by
  have e := (Equiv.sum_comp (finProdFinEquiv : Fin 16 × Fin 1024 ≃ Fin (16 * 1024)) g).symm
  rw [Fintype.sum_prod_type] at e
  refine e.trans (Finset.sum_congr rfl fun t _ => Finset.sum_congr rfl fun r _ => congrArg g (Fin.ext ?_))
  show r.val + 1024 * t.val = 1024 * t.val + r.val
  omega

/-- What an accumulator holds after block `n`: it starts at `z`, and block `t` adds `B t` to it, in order. -/
def running {M : Type*} [Add M] (z : M) (B : ℕ → M) : ℕ → M
  | 0 => z + B 0
  | n + 1 => running z B n + B (n + 1)

/-- The accumulator after block `n` is the start value plus the sum of blocks `0 … n`. -/
theorem running_eq {M : Type*} [AddCommMonoid M] (z : M) (B : ℕ → M) (n : ℕ) :
    running z B n = z + ∑ t ∈ Finset.range (n + 1), B t := by
  induction n with
  | zero => simp [running]
  | succ n ih => rw [running, ih, Finset.sum_range_succ _ (n + 1), add_assoc]

/-- Started at zero and fed the sixteen blocks' sums of `g`, the accumulator ends at the total of `g` over all rows. -/
theorem running_blocks {M : Type*} [AddCommMonoid M] (g : Fin 16384 → M) :
    running 0 (fun t => if h : t < 16 then ∑ r : Fin 1024, g (row ⟨t, h⟩ r) else 0) 15 = ∑ b, g b := by
  rw [running_eq, zero_add, Finset.sum_range, sum_rows_eq_sum_blocks]
  exact Finset.sum_congr rfl fun t _ => dif_pos t.isLt

/-- Five terms added one after the other onto zero are their sum. -/
theorem five_in_order {M : Type*} [AddCommMonoid M] (T : Fin 5 → M) :
    ((((0 + T 0) + T 1) + T 2) + T 3) + T 4 = ∑ k, T k := by
  rw [Fin.sum_univ_five, zero_add]

end Cert.SignedDist
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.BlockValue.lean ====
/-
  The body's arithmetic at the ideal values, read at an index.

  A neighbour's term at row `r` of the block is its sign at `r` times the squared distance of its row `r` from the
  anchor's: the lane sum over the 512 columns is the `Fin 512`-indexed sum, kept as a column and read at `(r, 0)`.
  The block's total is the sum over the block's 1024 rows of the five terms added in order onto zero, which is the
  row's contribution; the accumulator's update adds the block's total to the old value, and the result is the
  accumulator divided by the word of `16384.0`.
-/
import proofs.«162359_j63015760167697_1_alg».proof.Proof.Gen.KernelIdeal.Skeleton
import proofs.«162359_j63015760167697_1_alg».proof.Proof.Spec
import proofs.«162359_j63015760167697_1_alg».proof.Proof.Algebra
import proofs.«162359_j63015760167697_1_alg».proof.Proof.LibKeepdims
import Idealize.ShloMosaic.PureOps.Ideal.Laws

noncomputable section

namespace Cert.KernelIdeal.BlockValue

open Idealize.ShloMosaic Idealize.ShloMosaic.ValueIdx
open Cert.KernelIdeal Cert.KernelIdeal.Gen Cert.SignedDist

/-- A row sum kept as a column reads, at `(r, 0)`, the sum over the 512 columns of row `r`. -/
theorem rowSum_col_apply (v : FVec Ideal S1024x512 .f32) (hr : S1024x512.Reduces [1] S1024) (hc : S1024.ShapeCasts S1024x1)
    (hφ : FKind.Formats .f32) (hacc : (0x00000000#32 : BitVec 32) = FKind.add.neutral .f32 hφ) (r : Fin 1024) :
    shapeCast S1024x1 (multiReduction .add [1] S1024 v 0x00000000#32 hr hφ hacc) hc (ix2 r 0) = ∑ j : Fin 512, v (ix2 r j) := by
  refine (Keepdims.shapeCast_a_a1_apply _ hc r 0).trans ?_
  refine (Ideal.multiReduction_add_single v 0x00000000#32 hr hφ hacc (ix1 r)).trans ?_
  refine Finset.sum_congr rfl fun j _ => congrArg v ?_
  funext a
  match a with
  | ⟨0, _⟩ => rfl
  | ⟨1, _⟩ => rfl

/-- One neighbour's term at row `r`: its sign there times its squared distance from the anchor's row. -/
theorem term_apply (a e : FVec Ideal S1024x512 .f32) (l la : IVec S1024x1 32)
    (hr : S1024x512.Reduces [1] S1024) (hc : S1024.ShapeCasts S1024x1)
    (hφ : FKind.Formats .f32) (hacc : (0x00000000#32 : BitVec 32) = FKind.add.neutral .f32 hφ) (r : Fin 1024) :
    mulf (select (cmpi .eq l la) (broadcast S1024x1 (Scalar.ofBits (F := Ideal) .f32 0x3F800000#32))
        (broadcast S1024x1 (Scalar.ofBits (F := Ideal) .f32 0xBF800000#32)))
      (shapeCast S1024x1 (multiReduction .add [1] S1024 (mulf (subf a e) (subf a e)) 0x00000000#32 hr hφ hacc) hc) (ix2 r 0)
      = sign la l r * sqDist a e r := by
  rw [mulf_apply, rowSum_col_apply]
  rfl

/-- The block's total is the sum over its 1024 rows of the rows' contributions. -/
theorem blockTotal_apply (x0 : IVec S1024x1 32) (x1 : IVec S1024x1 32) (x2 : IVec S1024x1 32) (x3 : IVec S1024x1 32) (x4 : IVec S1024x1 32) (x5 : IVec S1024x1 32) (x6 : FVec Ideal S1024x512 .f32) (x7 : FVec Ideal S1024x512 .f32) (x8 : FVec Ideal S1024x512 .f32) (x9 : FVec Ideal S1024x512 .f32) (x10 : FVec Ideal S1024x512 .f32) (x11 : FVec Ideal S1024x512 .f32) :
    k0_pay7 (F := Ideal) x6 (k0_pay4 (F := Ideal) x0) (k0_pay5 (F := Ideal) x6 x0 x7 x1 x8 x2) (k0_pay6 (F := Ideal) x6 x9) x3 x10 x4 x11 x5 (ix2 0 0)
      = ∑ r : Fin 1024, rowTotal x0 ![x1, x2, x3, x4, x5] x6 ![x7, x8, x9, x10, x11] r := by
  unfold k0_pay7 k0_pay5 k0_pay6 k0_pay4
  dsimp only
  refine (Keepdims.shapeCast_a_a1_apply _ _ (0 : Fin 1) (0 : Fin 1)).trans ?_
  refine (Ideal.multiReduction_add_single _ _ _ _ _ _).trans ?_
  show ∑ r : Fin 1024, _ = _
  refine Finset.sum_congr rfl fun r _ => ?_
  have e : reduces_S1024x1_S1.lift (ix1 0) r = ix2 r 0 := funext fun a => by
    match a with | ⟨0, _⟩ => rfl | ⟨1, _⟩ => rfl
  rw [e]
  simp only [shapeCast_self, addf_apply, broadcast_apply]
  exact (congrArg₂ HAdd.hAdd (congrArg₂ HAdd.hAdd (congrArg₂ HAdd.hAdd (congrArg₂ HAdd.hAdd (congrArg₂ HAdd.hAdd
      Ideal.ofBits_zero_f32 (term_apply x6 x7 x1 x0 _ _ _ _ r)) (term_apply x6 x8 x2 x0 _ _ _ _ r)) (term_apply x6 x9 x3 x0 _ _ _ _ r))
      (term_apply x6 x10 x4 x0 _ _ _ _ r)) (term_apply x6 x11 x5 x0 _ _ _ _ r)).trans
    (five_in_order fun k => sign x0 (![x1, x2, x3, x4, x5] k) r * sqDist x6 (![x7, x8, x9, x10, x11] k) r)

/-- The accumulator's update at an index: the old value plus the block's total. -/
theorem update_apply (total old : FVec Ideal S1x1 .f32) (i : S1x1.Idx) :
    k0_pay1 (F := Ideal) total old i = old i + total i := by
  unfold k0_pay1
  rw [shapeCast_self]
  rfl

/-- The reset value is zero. -/
theorem reset_apply (i : S1x1.Idx) : k0_pay3 (F := Ideal) i = 0 := by
  unfold k0_pay3
  rw [shapeCast_self]
  exact Ideal.ofBits_zero_f32

/-- The result at an index: the accumulator divided by the word of `16384.0`. -/
theorem quotient_apply (a : FVec Ideal S1x1 .f32) (i : S1x1.Idx) :
    k0_pay2 (F := Ideal) a i = Ideal.div (a i) (Ideal.ofBits .f32 0x46800000#32) := by
  unfold k0_pay2
  rfl

end Cert.KernelIdeal.BlockValue

end
-- ==== Proof.KernelValue.lean ====
/-
  The kernel program's scalar result, at the ideal values, is the shared expression of the argument arrays.

  Point `t`'s block of a 16384-row operand is its rows `1024·t … 1024·t + 1023`, so the block's signed total is the
  sum of the contributions of those rows; the label operands are the label vectors reshaped to columns by the host
  before the region. The accumulator therefore runs through the sixteen blocks' sums and ends at the total over all
  rows, and the result is that total divided by the word of `16384.0`.
-/
import proofs.«162359_j63015760167697_1_alg».proof.Proof.KernelRun
import proofs.«162359_j63015760167697_1_alg».proof.Proof.BlockValue

noncomputable section

namespace Cert.KernelIdeal.KernelValue

open Idealize.ShloMosaic Idealize.ShloMosaic.TcCoe Idealize.SL.Sem Idealize.ShloMosaic.ValueIdx
open Cert.KernelIdeal Cert.KernelIdeal.Gen Cert.KernelIdeal.PointValue Cert.KernelIdeal.Accumulated
open Cert.KernelIdeal.KernelRun Cert.KernelIdeal.BlockValue Cert.SignedDist

variable (m : (ℓ : Loc nD τ sig) → Buf (Elt Ideal) ℓ)

/-- A grid point as one of the sixteen row blocks. -/
def pt (t : Fin cfg0.N) : Fin 16 := ⟨t.val, lt_of_lt_of_eq t.isLt (show cfg0.N = 16 from N_0)⟩

/-- Each operand's block index at point `t` is `(t, 0)`. -/
theorem rowsIdx6 : ∀ t : Fin cfg0.N, win0_6.index t 0 = t.val ∧ win0_6.index t 1 = 0 :=
  (by decide +kernel : ∀ t : Fin grid0.N, win0_6.index t 0 = t.val ∧ win0_6.index t 1 = 0)
theorem rowsIdx7 : ∀ t : Fin cfg0.N, win0_7.index t 0 = t.val ∧ win0_7.index t 1 = 0 :=
  (by decide +kernel : ∀ t : Fin grid0.N, win0_7.index t 0 = t.val ∧ win0_7.index t 1 = 0)
theorem rowsIdx8 : ∀ t : Fin cfg0.N, win0_8.index t 0 = t.val ∧ win0_8.index t 1 = 0 :=
  (by decide +kernel : ∀ t : Fin grid0.N, win0_8.index t 0 = t.val ∧ win0_8.index t 1 = 0)
theorem rowsIdx9 : ∀ t : Fin cfg0.N, win0_9.index t 0 = t.val ∧ win0_9.index t 1 = 0 :=
  (by decide +kernel : ∀ t : Fin grid0.N, win0_9.index t 0 = t.val ∧ win0_9.index t 1 = 0)
theorem rowsIdx10 : ∀ t : Fin cfg0.N, win0_10.index t 0 = t.val ∧ win0_10.index t 1 = 0 :=
  (by decide +kernel : ∀ t : Fin grid0.N, win0_10.index t 0 = t.val ∧ win0_10.index t 1 = 0)
theorem rowsIdx11 : ∀ t : Fin cfg0.N, win0_11.index t 0 = t.val ∧ win0_11.index t 1 = 0 :=
  (by decide +kernel : ∀ t : Fin grid0.N, win0_11.index t 0 = t.val ∧ win0_11.index t 1 = 0)
theorem labelsIdx0 : ∀ t : Fin cfg0.N, win0_0.index t 0 = t.val ∧ win0_0.index t 1 = 0 :=
  (by decide +kernel : ∀ t : Fin grid0.N, win0_0.index t 0 = t.val ∧ win0_0.index t 1 = 0)
theorem labelsIdx1 : ∀ t : Fin cfg0.N, win0_1.index t 0 = t.val ∧ win0_1.index t 1 = 0 :=
  (by decide +kernel : ∀ t : Fin grid0.N, win0_1.index t 0 = t.val ∧ win0_1.index t 1 = 0)
theorem labelsIdx2 : ∀ t : Fin cfg0.N, win0_2.index t 0 = t.val ∧ win0_2.index t 1 = 0 :=
  (by decide +kernel : ∀ t : Fin grid0.N, win0_2.index t 0 = t.val ∧ win0_2.index t 1 = 0)
theorem labelsIdx3 : ∀ t : Fin cfg0.N, win0_3.index t 0 = t.val ∧ win0_3.index t 1 = 0 :=
  (by decide +kernel : ∀ t : Fin grid0.N, win0_3.index t 0 = t.val ∧ win0_3.index t 1 = 0)
theorem labelsIdx4 : ∀ t : Fin cfg0.N, win0_4.index t 0 = t.val ∧ win0_4.index t 1 = 0 :=
  (by decide +kernel : ∀ t : Fin grid0.N, win0_4.index t 0 = t.val ∧ win0_4.index t 1 = 0)
theorem labelsIdx5 : ∀ t : Fin cfg0.N, win0_5.index t 0 = t.val ∧ win0_5.index t 1 = 0 :=
  (by decide +kernel : ∀ t : Fin grid0.N, win0_5.index t 0 = t.val ∧ win0_5.index t 1 = 0)

/-- Row `r`, column `j` of point `t`'s block of a row operand is row `1024·t + r`, column `j` of the argument. -/
theorem rows6_apply (c : Dev nD) (t : Fin cfg0.N) (r : Fin 1024) (j : Fin 512) :
    blk6 m c t (ix2 r j) = m ((c : Thread nD τ).loc main_arg0) (ix2 (row (pt t) r) j) := by
  show ((cfg0.win 6).blk t).view.read (Elt Ideal) (V m c (Pipeline.arrRef spec0 6)) (ix2 r j) = _
  rw [View.read_apply, ← V_main_arg0 m c]
  show V m c main_arg0 (((cfg0.win 6).blk t).view.emb (ix2 r j)) = _
  refine congrArg (V m c main_arg0) (funext fun a => Fin.ext ?_)
  have hi := rowsIdx6 t
  match a with
  | ⟨0, _⟩ => show win0_6.index t 0 * 1024 + 1 * r.val = 1024 * t.val + r.val; rw [hi.1]; omega
  | ⟨1, _⟩ => show win0_6.index t 1 * 512 + 1 * j.val = j.val; rw [hi.2]; omega

theorem rows7_apply (c : Dev nD) (t : Fin cfg0.N) (r : Fin 1024) (j : Fin 512) :
    blk7 m c t (ix2 r j) = m ((c : Thread nD τ).loc main_arg1) (ix2 (row (pt t) r) j) := by
  show ((cfg0.win 7).blk t).view.read (Elt Ideal) (V m c (Pipeline.arrRef spec0 7)) (ix2 r j) = _
  rw [View.read_apply, ← V_main_arg1 m c]
  show V m c main_arg1 (((cfg0.win 7).blk t).view.emb (ix2 r j)) = _
  refine congrArg (V m c main_arg1) (funext fun a => Fin.ext ?_)
  have hi := rowsIdx7 t
  match a with
  | ⟨0, _⟩ => show win0_7.index t 0 * 1024 + 1 * r.val = 1024 * t.val + r.val; rw [hi.1]; omega
  | ⟨1, _⟩ => show win0_7.index t 1 * 512 + 1 * j.val = j.val; rw [hi.2]; omega

theorem rows8_apply (c : Dev nD) (t : Fin cfg0.N) (r : Fin 1024) (j : Fin 512) :
    blk8 m c t (ix2 r j) = m ((c : Thread nD τ).loc main_arg2) (ix2 (row (pt t) r) j) := by
  show ((cfg0.win 8).blk t).view.read (Elt Ideal) (V m c (Pipeline.arrRef spec0 8)) (ix2 r j) = _
  rw [View.read_apply, ← V_main_arg2 m c]
  show V m c main_arg2 (((cfg0.win 8).blk t).view.emb (ix2 r j)) = _
  refine congrArg (V m c main_arg2) (funext fun a => Fin.ext ?_)
  have hi := rowsIdx8 t
  match a with
  | ⟨0, _⟩ => show win0_8.index t 0 * 1024 + 1 * r.val = 1024 * t.val + r.val; rw [hi.1]; omega
  | ⟨1, _⟩ => show win0_8.index t 1 * 512 + 1 * j.val = j.val; rw [hi.2]; omega

theorem rows9_apply (c : Dev nD) (t : Fin cfg0.N) (r : Fin 1024) (j : Fin 512) :
    blk9 m c t (ix2 r j) = m ((c : Thread nD τ).loc main_arg3) (ix2 (row (pt t) r) j) := by
  show ((cfg0.win 9).blk t).view.read (Elt Ideal) (V m c (Pipeline.arrRef spec0 9)) (ix2 r j) = _
  rw [View.read_apply, ← V_main_arg3 m c]
  show V m c main_arg3 (((cfg0.win 9).blk t).view.emb (ix2 r j)) = _
  refine congrArg (V m c main_arg3) (funext fun a => Fin.ext ?_)
  have hi := rowsIdx9 t
  match a with
  | ⟨0, _⟩ => show win0_9.index t 0 * 1024 + 1 * r.val = 1024 * t.val + r.val; rw [hi.1]; omega
  | ⟨1, _⟩ => show win0_9.index t 1 * 512 + 1 * j.val = j.val; rw [hi.2]; omega

theorem rows10_apply (c : Dev nD) (t : Fin cfg0.N) (r : Fin 1024) (j : Fin 512) :
    blk10 m c t (ix2 r j) = m ((c : Thread nD τ).loc main_arg4) (ix2 (row (pt t) r) j) := by
  show ((cfg0.win 10).blk t).view.read (Elt Ideal) (V m c (Pipeline.arrRef spec0 10)) (ix2 r j) = _
  rw [View.read_apply, ← V_main_arg4 m c]
  show V m c main_arg4 (((cfg0.win 10).blk t).view.emb (ix2 r j)) = _
  refine congrArg (V m c main_arg4) (funext fun a => Fin.ext ?_)
  have hi := rowsIdx10 t
  match a with
  | ⟨0, _⟩ => show win0_10.index t 0 * 1024 + 1 * r.val = 1024 * t.val + r.val; rw [hi.1]; omega
  | ⟨1, _⟩ => show win0_10.index t 1 * 512 + 1 * j.val = j.val; rw [hi.2]; omega

theorem rows11_apply (c : Dev nD) (t : Fin cfg0.N) (r : Fin 1024) (j : Fin 512) :
    blk11 m c t (ix2 r j) = m ((c : Thread nD τ).loc main_arg5) (ix2 (row (pt t) r) j) := by
  show ((cfg0.win 11).blk t).view.read (Elt Ideal) (V m c (Pipeline.arrRef spec0 11)) (ix2 r j) = _
  rw [View.read_apply, ← V_main_arg5 m c]
  show V m c main_arg5 (((cfg0.win 11).blk t).view.emb (ix2 r j)) = _
  refine congrArg (V m c main_arg5) (funext fun a => Fin.ext ?_)
  have hi := rowsIdx11 t
  match a with
  | ⟨0, _⟩ => show win0_11.index t 0 * 1024 + 1 * r.val = 1024 * t.val + r.val; rw [hi.1]; omega
  | ⟨1, _⟩ => show win0_11.index t 1 * 512 + 1 * j.val = j.val; rw [hi.2]; omega

/-- The host reshapes each label vector to a column before the region. -/
theorem column0 (c : Dev nD) :
    V m c main_v0 = shapeCast S16384x1 (m ((c : Thread nD τ).loc main_arg6)) shapeCasts_S16384_S16384x1 := by
  show StableHlo.after hostOps0 (fun b => m (c, b)) (Proc.devRef .tc main_v0) = _
  after_results
  rfl

theorem column1 (c : Dev nD) :
    V m c main_v1 = shapeCast S16384x1 (m ((c : Thread nD τ).loc main_arg7)) shapeCasts_S16384_S16384x1 := by
  show StableHlo.after hostOps0 (fun b => m (c, b)) (Proc.devRef .tc main_v1) = _
  after_results
  rfl

theorem column2 (c : Dev nD) :
    V m c main_v2 = shapeCast S16384x1 (m ((c : Thread nD τ).loc main_arg8)) shapeCasts_S16384_S16384x1 := by
  show StableHlo.after hostOps0 (fun b => m (c, b)) (Proc.devRef .tc main_v2) = _
  after_results
  rfl

theorem column3 (c : Dev nD) :
    V m c main_v3 = shapeCast S16384x1 (m ((c : Thread nD τ).loc main_arg9)) shapeCasts_S16384_S16384x1 := by
  show StableHlo.after hostOps0 (fun b => m (c, b)) (Proc.devRef .tc main_v3) = _
  after_results
  rfl

theorem column4 (c : Dev nD) :
    V m c main_v4 = shapeCast S16384x1 (m ((c : Thread nD τ).loc main_arg10)) shapeCasts_S16384_S16384x1 := by
  show StableHlo.after hostOps0 (fun b => m (c, b)) (Proc.devRef .tc main_v4) = _
  after_results
  rfl

theorem column5 (c : Dev nD) :
    V m c main_v5 = shapeCast S16384x1 (m ((c : Thread nD τ).loc main_arg11)) shapeCasts_S16384_S16384x1 := by
  show StableHlo.after hostOps0 (fun b => m (c, b)) (Proc.devRef .tc main_v5) = _
  after_results
  rfl

/-- Row `r` of point `t`'s block of a label column is the label of sample `1024·t + r`. -/
theorem labels0_apply (c : Dev nD) (t : Fin cfg0.N) (r : Fin 1024) :
    blk0 m c t (ix2 r 0) = m ((c : Thread nD τ).loc main_arg6) (ix1 (row (pt t) r)) := by
  show ((cfg0.win 0).blk t).view.read (Elt Ideal) (V m c (Pipeline.arrRef spec0 0)) (ix2 r 0) = _
  rw [View.read_apply]
  show V m c main_v0 (((cfg0.win 0).blk t).view.emb (ix2 r 0)) = _
  rw [column0 m c]
  refine (congrArg (shapeCast S16384x1 (m ((c : Thread nD τ).loc main_arg6)) shapeCasts_S16384_S16384x1)
    (funext fun a => Fin.ext ?_ : ((cfg0.win 0).blk t).view.emb (ix2 r 0) = ix2 (row (pt t) r) 0)).trans
    (Keepdims.shapeCast_a_a1_apply _ _ (row (pt t) r) 0)
  have hi := labelsIdx0 t
  match a with
  | ⟨0, _⟩ => show win0_0.index t 0 * 1024 + 1 * r.val = 1024 * t.val + r.val; rw [hi.1]; omega
  | ⟨1, _⟩ => show win0_0.index t 1 * 1 + 1 * 0 = 0; rw [hi.2]

theorem labels1_apply (c : Dev nD) (t : Fin cfg0.N) (r : Fin 1024) :
    blk1 m c t (ix2 r 0) = m ((c : Thread nD τ).loc main_arg7) (ix1 (row (pt t) r)) := by
  show ((cfg0.win 1).blk t).view.read (Elt Ideal) (V m c (Pipeline.arrRef spec0 1)) (ix2 r 0) = _
  rw [View.read_apply]
  show V m c main_v1 (((cfg0.win 1).blk t).view.emb (ix2 r 0)) = _
  rw [column1 m c]
  refine (congrArg (shapeCast S16384x1 (m ((c : Thread nD τ).loc main_arg7)) shapeCasts_S16384_S16384x1)
    (funext fun a => Fin.ext ?_ : ((cfg0.win 1).blk t).view.emb (ix2 r 0) = ix2 (row (pt t) r) 0)).trans
    (Keepdims.shapeCast_a_a1_apply _ _ (row (pt t) r) 0)
  have hi := labelsIdx1 t
  match a with
  | ⟨0, _⟩ => show win0_1.index t 0 * 1024 + 1 * r.val = 1024 * t.val + r.val; rw [hi.1]; omega
  | ⟨1, _⟩ => show win0_1.index t 1 * 1 + 1 * 0 = 0; rw [hi.2]

theorem labels2_apply (c : Dev nD) (t : Fin cfg0.N) (r : Fin 1024) :
    blk2 m c t (ix2 r 0) = m ((c : Thread nD τ).loc main_arg8) (ix1 (row (pt t) r)) := by
  show ((cfg0.win 2).blk t).view.read (Elt Ideal) (V m c (Pipeline.arrRef spec0 2)) (ix2 r 0) = _
  rw [View.read_apply]
  show V m c main_v2 (((cfg0.win 2).blk t).view.emb (ix2 r 0)) = _
  rw [column2 m c]
  refine (congrArg (shapeCast S16384x1 (m ((c : Thread nD τ).loc main_arg8)) shapeCasts_S16384_S16384x1)
    (funext fun a => Fin.ext ?_ : ((cfg0.win 2).blk t).view.emb (ix2 r 0) = ix2 (row (pt t) r) 0)).trans
    (Keepdims.shapeCast_a_a1_apply _ _ (row (pt t) r) 0)
  have hi := labelsIdx2 t
  match a with
  | ⟨0, _⟩ => show win0_2.index t 0 * 1024 + 1 * r.val = 1024 * t.val + r.val; rw [hi.1]; omega
  | ⟨1, _⟩ => show win0_2.index t 1 * 1 + 1 * 0 = 0; rw [hi.2]

theorem labels3_apply (c : Dev nD) (t : Fin cfg0.N) (r : Fin 1024) :
    blk3 m c t (ix2 r 0) = m ((c : Thread nD τ).loc main_arg9) (ix1 (row (pt t) r)) := by
  show ((cfg0.win 3).blk t).view.read (Elt Ideal) (V m c (Pipeline.arrRef spec0 3)) (ix2 r 0) = _
  rw [View.read_apply]
  show V m c main_v3 (((cfg0.win 3).blk t).view.emb (ix2 r 0)) = _
  rw [column3 m c]
  refine (congrArg (shapeCast S16384x1 (m ((c : Thread nD τ).loc main_arg9)) shapeCasts_S16384_S16384x1)
    (funext fun a => Fin.ext ?_ : ((cfg0.win 3).blk t).view.emb (ix2 r 0) = ix2 (row (pt t) r) 0)).trans
    (Keepdims.shapeCast_a_a1_apply _ _ (row (pt t) r) 0)
  have hi := labelsIdx3 t
  match a with
  | ⟨0, _⟩ => show win0_3.index t 0 * 1024 + 1 * r.val = 1024 * t.val + r.val; rw [hi.1]; omega
  | ⟨1, _⟩ => show win0_3.index t 1 * 1 + 1 * 0 = 0; rw [hi.2]

theorem labels4_apply (c : Dev nD) (t : Fin cfg0.N) (r : Fin 1024) :
    blk4 m c t (ix2 r 0) = m ((c : Thread nD τ).loc main_arg10) (ix1 (row (pt t) r)) := by
  show ((cfg0.win 4).blk t).view.read (Elt Ideal) (V m c (Pipeline.arrRef spec0 4)) (ix2 r 0) = _
  rw [View.read_apply]
  show V m c main_v4 (((cfg0.win 4).blk t).view.emb (ix2 r 0)) = _
  rw [column4 m c]
  refine (congrArg (shapeCast S16384x1 (m ((c : Thread nD τ).loc main_arg10)) shapeCasts_S16384_S16384x1)
    (funext fun a => Fin.ext ?_ : ((cfg0.win 4).blk t).view.emb (ix2 r 0) = ix2 (row (pt t) r) 0)).trans
    (Keepdims.shapeCast_a_a1_apply _ _ (row (pt t) r) 0)
  have hi := labelsIdx4 t
  match a with
  | ⟨0, _⟩ => show win0_4.index t 0 * 1024 + 1 * r.val = 1024 * t.val + r.val; rw [hi.1]; omega
  | ⟨1, _⟩ => show win0_4.index t 1 * 1 + 1 * 0 = 0; rw [hi.2]

theorem labels5_apply (c : Dev nD) (t : Fin cfg0.N) (r : Fin 1024) :
    blk5 m c t (ix2 r 0) = m ((c : Thread nD τ).loc main_arg11) (ix1 (row (pt t) r)) := by
  show ((cfg0.win 5).blk t).view.read (Elt Ideal) (V m c (Pipeline.arrRef spec0 5)) (ix2 r 0) = _
  rw [View.read_apply]
  show V m c main_v5 (((cfg0.win 5).blk t).view.emb (ix2 r 0)) = _
  rw [column5 m c]
  refine (congrArg (shapeCast S16384x1 (m ((c : Thread nD τ).loc main_arg11)) shapeCasts_S16384_S16384x1)
    (funext fun a => Fin.ext ?_ : ((cfg0.win 5).blk t).view.emb (ix2 r 0) = ix2 (row (pt t) r) 0)).trans
    (Keepdims.shapeCast_a_a1_apply _ _ (row (pt t) r) 0)
  have hi := labelsIdx5 t
  match a with
  | ⟨0, _⟩ => show win0_5.index t 0 * 1024 + 1 * r.val = 1024 * t.val + r.val; rw [hi.1]; omega
  | ⟨1, _⟩ => show win0_5.index t 1 * 1 + 1 * 0 = 0; rw [hi.2]

/-- The contribution of sample `b`, from the argument arrays. -/
def contribution (c : Dev nD) (b : Fin 16384) : EReal :=
  rowTotal (col (m ((c : Thread nD τ).loc main_arg6))) (fun k => col (![m ((c : Thread nD τ).loc main_arg7), m ((c : Thread nD τ).loc main_arg8), m ((c : Thread nD τ).loc main_arg9), m ((c : Thread nD τ).loc main_arg10), m ((c : Thread nD τ).loc main_arg11)] k))
    (m ((c : Thread nD τ).loc main_arg0)) ![m ((c : Thread nD τ).loc main_arg1), m ((c : Thread nD τ).loc main_arg2), m ((c : Thread nD τ).loc main_arg3), m ((c : Thread nD τ).loc main_arg4), m ((c : Thread nD τ).loc main_arg5)] b

/-- A sign read through a block is the sign of the sample the row belongs to. -/
theorem sign_of_rows {la l : (⟨1, ![16384]⟩ : Shape).Idx → BitVec 32} {bla bl : (⟨2, ![1024, 1]⟩ : Shape).Idx → BitVec 32}
    {r : Fin 1024} {b : Fin 16384} (hla : bla (ix2 r 0) = la (ix1 b)) (hl : bl (ix2 r 0) = l (ix1 b)) :
    sign bla bl r = sign (col la) (col l) b := by
  unfold sign col
  rw [hla, hl]

/-- A squared distance read through blocks is the squared distance of the sample's rows. -/
theorem sqDist_of_rows {a e : (⟨2, ![16384, 512]⟩ : Shape).Idx → EReal} {ba be : (⟨2, ![1024, 512]⟩ : Shape).Idx → EReal}
    {r : Fin 1024} {b : Fin 16384} (ha : ∀ j, ba (ix2 r j) = a (ix2 b j)) (he : ∀ j, be (ix2 r j) = e (ix2 b j)) :
    sqDist ba be r = sqDist a e b := by
  unfold sqDist
  exact Finset.sum_congr rfl fun j _ => by rw [ha j, he j]

/-- Row `r` of point `t`'s blocks contributes what sample `1024·t + r` contributes. -/
theorem block_row (c : Dev nD) (t : Fin cfg0.N) (r : Fin 1024) :
    rowTotal (blk0 m c t) ![blk1 m c t, blk2 m c t, blk3 m c t, blk4 m c t, blk5 m c t] (blk6 m c t) ![blk7 m c t, blk8 m c t, blk9 m c t, blk10 m c t, blk11 m c t] r
      = contribution m c (row (pt t) r) := by
  unfold contribution rowTotal
  refine Finset.sum_congr rfl fun k _ => ?_
  fin_cases k
  · show sign (blk0 m c t) (blk1 m c t) r * sqDist (blk6 m c t) (blk7 m c t) r
      = sign (col (m ((c : Thread nD τ).loc main_arg6))) (col (m ((c : Thread nD τ).loc main_arg7))) (row (pt t) r)
        * sqDist (m ((c : Thread nD τ).loc main_arg0)) (m ((c : Thread nD τ).loc main_arg1)) (row (pt t) r)
    rw [sign_of_rows (labels0_apply m c t r) (labels1_apply m c t r), sqDist_of_rows (rows6_apply m c t r) (rows7_apply m c t r)]
  · show sign (blk0 m c t) (blk2 m c t) r * sqDist (blk6 m c t) (blk8 m c t) r
      = sign (col (m ((c : Thread nD τ).loc main_arg6))) (col (m ((c : Thread nD τ).loc main_arg8))) (row (pt t) r)
        * sqDist (m ((c : Thread nD τ).loc main_arg0)) (m ((c : Thread nD τ).loc main_arg2)) (row (pt t) r)
    rw [sign_of_rows (labels0_apply m c t r) (labels2_apply m c t r), sqDist_of_rows (rows6_apply m c t r) (rows8_apply m c t r)]
  · show sign (blk0 m c t) (blk3 m c t) r * sqDist (blk6 m c t) (blk9 m c t) r
      = sign (col (m ((c : Thread nD τ).loc main_arg6))) (col (m ((c : Thread nD τ).loc main_arg9))) (row (pt t) r)
        * sqDist (m ((c : Thread nD τ).loc main_arg0)) (m ((c : Thread nD τ).loc main_arg3)) (row (pt t) r)
    rw [sign_of_rows (labels0_apply m c t r) (labels3_apply m c t r), sqDist_of_rows (rows6_apply m c t r) (rows9_apply m c t r)]
  · show sign (blk0 m c t) (blk4 m c t) r * sqDist (blk6 m c t) (blk10 m c t) r
      = sign (col (m ((c : Thread nD τ).loc main_arg6))) (col (m ((c : Thread nD τ).loc main_arg10))) (row (pt t) r)
        * sqDist (m ((c : Thread nD τ).loc main_arg0)) (m ((c : Thread nD τ).loc main_arg4)) (row (pt t) r)
    rw [sign_of_rows (labels0_apply m c t r) (labels4_apply m c t r), sqDist_of_rows (rows6_apply m c t r) (rows10_apply m c t r)]
  · show sign (blk0 m c t) (blk5 m c t) r * sqDist (blk6 m c t) (blk11 m c t) r
      = sign (col (m ((c : Thread nD τ).loc main_arg6))) (col (m ((c : Thread nD τ).loc main_arg11))) (row (pt t) r)
        * sqDist (m ((c : Thread nD τ).loc main_arg0)) (m ((c : Thread nD τ).loc main_arg5)) (row (pt t) r)
    rw [sign_of_rows (labels0_apply m c t r) (labels5_apply m c t r), sqDist_of_rows (rows6_apply m c t r) (rows11_apply m c t r)]

/-- Point `t`'s block total is the sum of the contributions of rows `1024·t … 1024·t + 1023`. -/
theorem pointTotal_apply (c : Dev nD) (t : Fin cfg0.N) :
    pointTotal m c t (ix2 0 0) = ∑ r : Fin 1024, contribution m c (row (pt t) r) := by
  unfold pointTotal blockTotal
  refine (blockTotal_apply (blk0 m c t) (blk1 m c t) (blk2 m c t) (blk3 m c t) (blk4 m c t) (blk5 m c t) (blk6 m c t) (blk7 m c t) (blk8 m c t) (blk9 m c t) (blk10 m c t) (blk11 m c t)).trans ?_
  exact Finset.sum_congr rfl fun r _ => block_row m c t r

/-- The sixteen blocks' sums, as a sequence. -/
def blockSums (c : Dev nD) : ℕ → EReal :=
  fun t => if h : t < 16 then ∑ r : Fin 1024, contribution m c (row ⟨t, h⟩ r) else 0

theorem blockSums_eq (c : Dev nD) (n : ℕ) (h : n < cfg0.N) :
    blockSums m c n = ∑ r : Fin 1024, contribution m c (row (pt ⟨n, h⟩) r) :=
  dif_pos (pt ⟨n, h⟩).isLt

/-- The accumulator after point `n` is the running total of the blocks' sums, started at zero. -/
theorem acc_apply (c : Dev nD) : ∀ (n : ℕ) (h : n < cfg0.N), acc m c n h (ix2 0 0) = running 0 (blockSums m c) n
  | 0, h => by
    show k0_pay1 (F := Ideal) (pointTotal m c ⟨0, h⟩) (k0_pay3 (F := Ideal)) (ix2 0 0) = 0 + blockSums m c 0
    rw [update_apply, reset_apply, pointTotal_apply, blockSums_eq m c 0 h]
  | n + 1, h => by
    show k0_pay1 (F := Ideal) (pointTotal m c ⟨n + 1, h⟩) (acc m c n (Nat.lt_of_succ_lt h)) (ix2 0 0)
      = running 0 (blockSums m c) n + blockSums m c (n + 1)
    rw [update_apply, acc_apply c n, pointTotal_apply, blockSums_eq m c (n + 1) h]

/-- The 1×1 array has one index. -/
theorem idx11 (k : S1x1.Idx) : k = ix2 0 0 := funext fun a => Fin.ext (by
  match a with
  | ⟨0, _⟩ => have h : (k 0).val < 1 := (k 0).isLt; show (k 0).val = 0; omega
  | ⟨1, _⟩ => have h : (k 1).val < 1 := (k 1).isLt; show (k 1).val = 0; omega)

/-- The kernel program's scalar result is the shared expression of its argument arrays. -/
theorem value_eq (c : Dev nD) :
    value m c = fun _ => mean (m ((c : Thread nD τ).loc main_arg6)) ![m ((c : Thread nD τ).loc main_arg7), m ((c : Thread nD τ).loc main_arg8), m ((c : Thread nD τ).loc main_arg9), m ((c : Thread nD τ).loc main_arg10), m ((c : Thread nD τ).loc main_arg11)]
      (m ((c : Thread nD τ).loc main_arg0)) ![m ((c : Thread nD τ).loc main_arg1), m ((c : Thread nD τ).loc main_arg2), m ((c : Thread nD τ).loc main_arg3), m ((c : Thread nD τ).loc main_arg4), m ((c : Thread nD τ).loc main_arg5)] := by
  funext i
  have e : shapeCast S_ (stored m c) shapeCasts_S1x1_S_ i = stored m c (ix2 0 0) := by
    unfold shapeCast
    exact congrArg (stored m c) (idx11 _)
  refine e.trans ?_
  show k0_pay2 (F := Ideal) (acc m c 15 last_lt) (ix2 0 0) = _
  rw [quotient_apply, acc_apply]
  unfold blockSums
  rw [running_blocks (contribution m c)]
  rfl

end Cert.KernelIdeal.KernelValue

end
-- ==== Proof.RefValue.lean ====
/-
  The reference program's result as the shared expression.

  The reference stacks the five neighbours' rows (and labels) along a new leading axis, subtracts them from the anchor's
  rows repeated five times, squares, sums over the 512 columns, multiplies by the sign the labels select, sums over the
  five neighbours, sums over the samples and divides. Read at an index, each stage is the corresponding part of
  `SignedDist.mean`: entry `(k, b, j)` of a stack is entry `(b, j)` of its `k`-th member, and each of the three
  sums starts from the word of zero, which adds nothing.
-/
import proofs.«162359_j63015760167697_1_alg».proof.Proof.Gen.ReferenceIdeal.Read
import proofs.«162359_j63015760167697_1_alg».proof.Proof.Spec
import Idealize.ShloMosaic.Lib.ValueIdxRank1

noncomputable section

namespace Cert.ReferenceIdeal.RefValue

open Idealize.ShloMosaic Idealize.ShloMosaic.ValueIdx
open Cert.ReferenceIdeal Cert.ReferenceIdeal.Gen Cert.ReferenceIdeal.Read Cert.SignedDist

/-- Five rank-3 arrays with a leading unit axis, stacked along it: entry `(k, b, j)` is entry `(0, b, j)` of member `k`. -/
theorem stack3_apply {α : Type} (f : Fin 5 → (S1x16384x512.Idx → α))
    (h : Shape.Concatenates [S1x16384x512, S1x16384x512, S1x16384x512, S1x16384x512, S1x16384x512] S5x16384x512 0)
    (k : Fin 5) (b : Fin 16384) (j : Fin 512) :
    concatenate S5x16384x512 0 [⟨S1x16384x512, f 0⟩, ⟨S1x16384x512, f 1⟩, ⟨S1x16384x512, f 2⟩, ⟨S1x16384x512, f 3⟩, ⟨S1x16384x512, f 4⟩] h (ix3 k b j)
      = f k (ix3 0 b j) :=
  concatenate_ofFn_unit_apply (t := S5x16384x512) (s₁ := S1x16384x512) 0 f h rfl rfl (ix3 k b j) k rfl (ix3 0 b j) (fun bb hb => by
    match bb with
    | ⟨0, _⟩ => exact absurd rfl hb
    | ⟨1, _⟩ => rfl
    | ⟨2, _⟩ => rfl)

/-- The same for five rank-2 arrays: entry `(k, b)` is entry `(0, b)` of member `k`. -/
theorem stack2_apply {α : Type} (f : Fin 5 → (S1x16384.Idx → α))
    (h : Shape.Concatenates [S1x16384, S1x16384, S1x16384, S1x16384, S1x16384] S5x16384 0)
    (k : Fin 5) (b : Fin 16384) :
    concatenate S5x16384 0 [⟨S1x16384, f 0⟩, ⟨S1x16384, f 1⟩, ⟨S1x16384, f 2⟩, ⟨S1x16384, f 3⟩, ⟨S1x16384, f 4⟩] h (ix2 k b)
      = f k (ix2 0 b) :=
  concatenate_ofFn_unit_apply (t := S5x16384) (s₁ := S1x16384) 0 f h rfl rfl (ix2 k b) k rfl (ix2 0 b) (fun bb hb => by
    match bb with
    | ⟨0, _⟩ => exact absurd rfl hb
    | ⟨1, _⟩ => rfl)

/-- The stacked neighbours' rows at `(k, b, j)`: neighbour `k`'s row `b`, column `j`. -/
theorem rows_apply (x1 x2 x3 x4 x5 : FVec Ideal S16384x512 .f32) (k : Fin 5) (b : Fin 16384) (j : Fin 512) :
    val_main_v5 (F := Ideal) x1 x2 x3 x4 x5 (ix3 k b j) = (![x1, x2, x3, x4, x5] k) (ix2 b j) := by
  unfold val_main_v5
  refine (stack3_apply ![val_main_v0 (F := Ideal) x1, val_main_v1 (F := Ideal) x2, val_main_v2 (F := Ideal) x3, val_main_v3 (F := Ideal) x4, val_main_v4 (F := Ideal) x5] _ k b j).trans ?_
  fin_cases k
  · show val_main_v0 (F := Ideal) x1 (ix3 0 b j) = x1 (ix2 b j)
    rw [val_main_v0_apply]
    exact congrArg x1 (funext fun i => by match i with | ⟨0, _⟩ => rfl | ⟨1, _⟩ => rfl)
  · show val_main_v1 (F := Ideal) x2 (ix3 0 b j) = x2 (ix2 b j)
    rw [val_main_v1_apply]
    exact congrArg x2 (funext fun i => by match i with | ⟨0, _⟩ => rfl | ⟨1, _⟩ => rfl)
  · show val_main_v2 (F := Ideal) x3 (ix3 0 b j) = x3 (ix2 b j)
    rw [val_main_v2_apply]
    exact congrArg x3 (funext fun i => by match i with | ⟨0, _⟩ => rfl | ⟨1, _⟩ => rfl)
  · show val_main_v3 (F := Ideal) x4 (ix3 0 b j) = x4 (ix2 b j)
    rw [val_main_v3_apply]
    exact congrArg x4 (funext fun i => by match i with | ⟨0, _⟩ => rfl | ⟨1, _⟩ => rfl)
  · show val_main_v4 (F := Ideal) x5 (ix3 0 b j) = x5 (ix2 b j)
    rw [val_main_v4_apply]
    exact congrArg x5 (funext fun i => by match i with | ⟨0, _⟩ => rfl | ⟨1, _⟩ => rfl)

/-- The stacked neighbours' labels at `(k, b)`: neighbour `k`'s label of sample `b`. -/
theorem labels_apply (x7 x8 x9 x10 x11 : IVec S16384 32) (k : Fin 5) (b : Fin 16384) :
    val_main_v11 (F := Ideal) x7 x8 x9 x10 x11 (ix2 k b) = (![x7, x8, x9, x10, x11] k) (ix1 b) := by
  unfold val_main_v11
  refine (stack2_apply ![val_main_v6 (F := Ideal) x7, val_main_v7 (F := Ideal) x8, val_main_v8 (F := Ideal) x9, val_main_v9 (F := Ideal) x10, val_main_v10 (F := Ideal) x11] _ k b).trans ?_
  fin_cases k
  · show val_main_v6 (F := Ideal) x7 (ix2 0 b) = x7 (ix1 b)
    rw [val_main_v6_apply]
    exact congrArg x7 (funext fun i => by match i with | ⟨0, _⟩ => rfl)
  · show val_main_v7 (F := Ideal) x8 (ix2 0 b) = x8 (ix1 b)
    rw [val_main_v7_apply]
    exact congrArg x8 (funext fun i => by match i with | ⟨0, _⟩ => rfl)
  · show val_main_v8 (F := Ideal) x9 (ix2 0 b) = x9 (ix1 b)
    rw [val_main_v8_apply]
    exact congrArg x9 (funext fun i => by match i with | ⟨0, _⟩ => rfl)
  · show val_main_v9 (F := Ideal) x10 (ix2 0 b) = x10 (ix1 b)
    rw [val_main_v9_apply]
    exact congrArg x10 (funext fun i => by match i with | ⟨0, _⟩ => rfl)
  · show val_main_v10 (F := Ideal) x11 (ix2 0 b) = x11 (ix1 b)
    rw [val_main_v10_apply]
    exact congrArg x11 (funext fun i => by match i with | ⟨0, _⟩ => rfl)

/-- The sum over the columns at `(k, b)`: neighbour `k`'s squared distance from the anchor at sample `b`. -/
theorem sq_apply (x0 x1 x2 x3 x4 x5 : FVec Ideal S16384x512 .f32) (k : Fin 5) (b : Fin 16384) :
    val_main_v16 (F := Ideal) x0 x1 x2 x3 x4 x5 (ix2 k b) = sqDist x0 (![x1, x2, x3, x4, x5] k) b := by
  rw [val_main_v16_apply, val_main_cst_apply]
  show Ideal.ofBits .f32 0x00000000#32 + _ = _
  rw [Ideal.ofBits_zero_f32, zero_add]
  unfold sqDist
  refine Finset.sum_congr rfl fun j _ => ?_
  have e : idx_main_v16 (ix2 k b) j = ix3 k b j := funext fun a => by
    match a with | ⟨0, _⟩ => rfl | ⟨1, _⟩ => rfl | ⟨2, _⟩ => rfl
  have ea : val_main_v13 (F := Ideal) x0 (ix3 k b j) = x0 (ix2 b j) := by
    rw [val_main_v13_apply, val_main_v12_apply]
    exact congrArg x0 (funext fun a => by match a with | ⟨0, _⟩ => rfl | ⟨1, _⟩ => rfl)
  rw [e, val_main_v15_apply, val_main_v14_apply, ea, rows_apply]
  rfl

/-- The selected sign at `(k, b)`: neighbour `k`'s sign at sample `b`. -/
theorem sign_apply (x6 x7 x8 x9 x10 x11 : IVec S16384 32) (k : Fin 5) (b : Fin 16384) :
    val_main_v21 (F := Ideal) x6 x7 x8 x9 x10 x11 (ix2 k b) = sign (col x6) (col (![x7, x8, x9, x10, x11] k)) b := by
  have ea : val_main_v18 (F := Ideal) x6 (ix2 k b) = x6 (ix1 b) := by
    rw [val_main_v18_apply, val_main_v17_apply]
    exact congrArg x6 (funext fun a => by match a with | ⟨0, _⟩ => rfl)
  rw [val_main_v21_apply, val_main_v20_apply, val_main_v19_apply, val_main_call0_v0_apply, val_main_cst_0_apply,
    val_main_call0_v1_apply, val_main_cst_1_apply, ea, labels_apply]
  rfl

/-- The whole result is the shared expression. -/
theorem result_eq (x0 x1 x2 x3 x4 x5 : FVec Ideal S16384x512 .f32) (x6 x7 x8 x9 x10 x11 : IVec S16384 32) :
    val_main_v25 (F := Ideal) x0 x1 x2 x3 x4 x5 x6 x7 x8 x9 x10 x11 = fun _ => mean x6 ![x7, x8, x9, x10, x11] x0 ![x1, x2, x3, x4, x5] := by
  funext i
  rw [val_main_v25_apply, val_main_v24_apply, val_main_cst_3_apply, val_main_cst_4_apply]
  show Ideal.div (Ideal.ofBits .f32 0x00000000#32 + _) (Ideal.ofBits .f32 0x46800000#32) = _
  rw [Ideal.ofBits_zero_f32, zero_add]
  unfold mean
  refine congrArg (fun s => Ideal.div s (Ideal.ofBits .f32 0x46800000#32)) ?_
  rw [← Equiv.sum_comp (idxEquiv1 (n := 16384)).symm]
  refine Finset.sum_congr rfl fun b _ => ?_
  show val_main_v23 (F := Ideal) x0 x1 x2 x3 x4 x5 x6 x7 x8 x9 x10 x11 (ix1 b) = _
  rw [val_main_v23_apply, val_main_cst_2_apply]
  show Ideal.ofBits .f32 0x00000000#32 + _ = _
  rw [Ideal.ofBits_zero_f32, zero_add]
  unfold rowTotal
  refine Finset.sum_congr rfl fun k _ => ?_
  have e : idx_main_v23 (ix1 b) k = ix2 k b := funext fun a => by
    match a with | ⟨0, _⟩ => rfl | ⟨1, _⟩ => rfl
  rw [e, val_main_v22_apply, sign_apply, sq_apply]
  rfl

end Cert.ReferenceIdeal.RefValue

end
-- ==== Proof.lean ====
/-
  The certificate: the kernel computes, over the extended reals, the mean over 16384 samples of the signed squared
  distances of five neighbours from an anchor, as the reference does.

  The kernel walks the samples in sixteen blocks of 1024 rows; at each block it adds the block's signed total to a
  one-word accumulator, and at the last block it divides the accumulator by the number of samples. The reference sums
  over the 512 columns, the five neighbours and the 16384 samples at once and divides. Both are
  `SignedDist.mean` of the argument arrays: a sum over all samples is the sum over the blocks of the blocks' sums, and
  every zero the sums start from adds nothing. Only commutativity and associativity of addition on the extended reals
  are used, so the finiteness of the inputs is not needed.

  The three runs are the frame runs of the two kernel programs and the reference's run; the idealization rewrote no
  operation, so there is nothing to preserve.
-/
import proofs.«162359_j63015760167697_1_alg».proof.Defs
import proofs.«162359_j63015760167697_1_alg».proof.Proof.Gen.Kernel
import proofs.«162359_j63015760167697_1_alg».proof.Proof.Gen.Kernel.Frame
import proofs.«162359_j63015760167697_1_alg».proof.Proof.Gen.KernelIdeal
import proofs.«162359_j63015760167697_1_alg».proof.Proof.Gen.KernelIdeal.Frame
import proofs.«162359_j63015760167697_1_alg».proof.Proof.Gen.ReferenceIdeal
import proofs.«162359_j63015760167697_1_alg».proof.Proof.Gen.ReferenceIdeal.Run
import proofs.«162359_j63015760167697_1_alg».proof.Proof.Gen.ReferenceIdeal.Read
import proofs.«162359_j63015760167697_1_alg».proof.Proof.Gen.Pre_finite_inputs
import proofs.«162359_j63015760167697_1_alg».proof.Proof.KernelValue
import proofs.«162359_j63015760167697_1_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same scalar: each is `SignedDist.mean` of
    the argument arrays. -/
theorem algebraic : Cert.algebraic_KernelIdeal_ReferenceIdeal := by
  intro m ρ m' ρ' _ hagree
  refine ⟨fun c => Cert.KernelIdeal.KernelRun.value m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  show _ = Cert.KernelIdeal.KernelRun.value m c
  rw [Cert.KernelIdeal.KernelValue.value_eq m c, Cert.ReferenceIdeal.Read.val_main_v25_eq, Cert.ReferenceIdeal.RefValue.result_eq,
    h0, h1, h2, h3, h4, h5, h6, h7, h8, h9, h10, h11]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
